-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  reducesTo_S_S_d : S_.ReducesTo [] S_

variable [Facts]

def fn {F : FTy → Type} [FloatOps F] (main_arg0 : FVec F S2048x32 .f32) (main_arg1 : FVec F S2048x32 .f32) (main_arg2 : FVec F S_ .f32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  let main_v4 : FVec F S2048x32 .f32 := Host.absf main_arg1
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S2048x32 : Shape := ⟨2, ![2048, 32]⟩
abbrev S_ : Shape := ⟨0, ![]⟩
abbrev S32x2048 : Shape := ⟨2, ![32, 2048]⟩
abbrev S32x2048x1 : Shape := ⟨3, ![32, 2048, 1]⟩
abbrev S32x1x2048 : Shape := ⟨3, ![32, 1, 2048]⟩
abbrev S1x1 : Shape := ⟨2, ![1, 1]⟩
abbrev S32x128x1 : Shape := ⟨3, ![32, 128, 1]⟩
abbrev S32x1x128 : Shape := ⟨3, ![32, 1, 128]⟩
abbrev S32x128x128 : Shape := ⟨3, ![32, 128, 128]⟩
abbrev S32x128 : Shape := ⟨2, ![32, 128]⟩
abbrev S32 : Shape := ⟨1, ![32]⟩
abbrev S1x32 : Shape := ⟨2, ![1, 32]⟩
abbrev S1 : Shape := ⟨1, ![1]⟩

abbrev nBuf : Space → Nat
  | .hbm => 12
  | .vmem => 10
  | .smem => 0
  | _ => 0

abbrev bufTy : (tb : Table) → Fin (tcTables nBuf tb) → BufTy
  | .hbm, ⟨0, _⟩ => ⟨S2048x32, .f32⟩
  | .hbm, ⟨1, _⟩ => ⟨S2048x32, .f32⟩
  | .hbm, ⟨2, _⟩ => ⟨S_, .f32⟩
  | .hbm, ⟨3, _⟩ => ⟨S32x2048, .f32⟩
  | .hbm, ⟨4, _⟩ => ⟨S32x2048, .f32⟩
  | .hbm, ⟨5, _⟩ => ⟨S32x2048x1, .f32⟩
  | .hbm, ⟨6, _⟩ => ⟨S32x1x2048, .f32⟩
  | .hbm, ⟨7, _⟩ => ⟨S32x2048x1, .f32⟩
  | .hbm, ⟨8, _⟩ => ⟨S32x1x2048, .f32⟩
  | .hbm, ⟨9, _⟩ => ⟨S1x1, .f32⟩
  | .hbm, ⟨10, _⟩ => ⟨S1x1, .f32⟩
  | .hbm, ⟨11, _⟩ => ⟨S_, .f32⟩
  | .local _ .vmem, ⟨0, _⟩ => ⟨S1x1, .f32⟩
  | .local _ .vmem, ⟨1, _⟩ => ⟨S32x128x1, .f32⟩
  | .local _ .vmem, ⟨2, _⟩ => ⟨S32x128x1, .f32⟩
  | .local _ .vmem, ⟨3, _⟩ => ⟨S32x1x128, .f32⟩
  | .local _ .vmem, ⟨4, _⟩ => ⟨S32x1x128, .f32⟩
  | .local _ .vmem, ⟨5, _⟩ => ⟨S32x128x1, .f32⟩
  | .local _ .vmem, ⟨6, _⟩ => ⟨S32x128x1, .f32⟩
  | .local _ .vmem, ⟨7, _⟩ => ⟨S32x1x128, .f32⟩
  | .local _ .vmem, ⟨8, _⟩ => ⟨S32x1x128, .f32⟩
  | .local _ .vmem, ⟨9, _⟩ => ⟨S1x1, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  transposes_S2048x32_S32x2048_1_0 : S2048x32.Transposes [1, 0] S32x2048
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  shapeCasts_S_S1x1 : S_.ShapeCasts S1x1
  inb_S1x1_S1x1_0_0 : ∀ a, (![0, 0] : Fin 2 → Nat) a + S1x1.size a ≤ S1x1.size a
  h_S1x1 : 0 < S1x1.numel
  inb_S32x128x1_S32x128x1_0_0_0 : ∀ a, (![0, 0, 0] : Fin 3 → Nat) a + S32x128x1.size a ≤ S32x128x1.size a
  h_S32x128x1 : 0 < S32x128x1.numel
  shapeCasts_S32x128x1_S32x128x1 : S32x128x1.ShapeCasts S32x128x1
  inb_S32x1x128_S32x1x128_0_0_0 : ∀ a, (![0, 0, 0] : Fin 3 → Nat) a + S32x1x128.size a ≤ S32x1x128.size a
  h_S32x1x128 : 0 < S32x1x128.numel
  shapeCasts_S32x1x128_S32x1x128 : S32x1x128.ShapeCasts S32x1x128
  broadcasts_S32x128x1_S32x128x128 : S32x128x1.Broadcasts S32x128x128
  broadcasts_S32x1x128_S32x128x128 : S32x1x128.Broadcasts S32x128x128
  inpos_S1x1_p0_0 : ∀ a, (![0, 0] : Fin 2 → Nat) a < S1x1.size a
  reduces_S32x128x128_S32x128 : S32x128x128.Reduces [2] S32x128
  reduces_S32x128_S32 : S32x128.Reduces [1] S32
  shapeCasts_S32_S1x32 : S32.ShapeCasts S1x32
  reduces_S1x32_S1 : S1x32.Reduces [1] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x1.size a ≤ S32x2048x1.size a
  hwx0_1 : ∀ i : grid0.Coords, EltTy.bits .f32 = 32 ∨ (Rect.block (s := S32x2048x1) S32x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1x128.size a ≤ S32x1x2048.size a
  hwx0_2 : ∀ i : grid0.Coords, EltTy.bits .f32 = 32 ∨ (Rect.block (s := S32x1x2048) S32x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x1.size a ≤ S32x2048x1.size a
  hwx0_3 : ∀ i : grid0.Coords, EltTy.bits .f32 = 32 ∨ (Rect.block (s := S32x2048x1) S32x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1x128.size a ≤ S32x1x2048.size a
  hwx0_4 : ∀ i : grid0.Coords, EltTy.bits .f32 = 32 ∨ (Rect.block (s := S32x1x2048) S32x1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v6) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x32 : Shape := ⟨2, ![2048, 32]⟩
abbrev S_ : Shape := ⟨0, ![]⟩
abbrev S32x2048 : Shape := ⟨2, ![32, 2048]⟩
abbrev S32x2048x1 : Shape := ⟨3, ![32, 2048, 1]⟩
abbrev S32x1x2048 : Shape := ⟨3, ![32, 1, 2048]⟩
abbrev S32x2048x2048 : Shape := ⟨3, ![32, 2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S2048x32, .f32⟩
  | .hbm, ⟨2, _⟩ => ⟨S_, .f32⟩
  | .hbm, ⟨3, _⟩ => ⟨S32x2048, .f32⟩
  | .hbm, ⟨4, _⟩ => ⟨S32x2048, .f32⟩
  | .hbm, ⟨5, _⟩ => ⟨S32x2048x1, .f32⟩
  | .hbm, ⟨6, _⟩ => ⟨S32x1x2048, .f32⟩
  | .hbm, ⟨7, _⟩ => ⟨S32x2048x2048, .f32⟩
  | .hbm, ⟨8, _⟩ => ⟨S32x2048x2048, .f32⟩
  | .hbm, ⟨9, _⟩ => ⟨S32x2048x2048, .f32⟩
  | .hbm, ⟨10, _⟩ => ⟨S32x2048x1, .f32⟩
  | .hbm, ⟨11, _⟩ => ⟨S32x1x2048, .f32⟩
  | .hbm, ⟨12, _⟩ => ⟨S32x2048x2048, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  transposes_S2048x32_S32x2048_1_0 : S2048x32.Transposes [1, 0] S32x2048
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S_d0_1_2 : S32x2048x2048.ReducesTo [0, 1, 2] S_
  h_S_ : 0 < S_.numel

variable [Facts₀]

class Facts : Prop extends Facts₀ where

variable [Facts]
-- ==== Proof.HingeSpec.lean ====
/-
  The mathematics of the pairwise hinge loss, stated once over the extended reals and free of either program.

  For arrays `o l` of shape [2048, 32] (item, batch) and a margin `mg`, the term of the ordered pair (P, Q) of items in
  batch row `b` is  max (mg - (o P b - o Q b) * (l P b - l Q b)) 0,  and the loss is the sum of all 32 * 2048 * 2048 terms
  divided by 4096.  One program adds the terms in one sweep; the other cuts the 2048 x 2048 pairs into 16 x 16 tiles of
  128 x 128, adds a tile's 32 * 128 * 128 terms, and carries a running sum tile after tile in row-major order of the tiles.
  Addition of extended reals is commutative and associative, so the two groupings agree (`run_last`): no finiteness is used.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Hinge

/-! ## Sums over a rank-3 index set, and over 2048 = 16 * 128 -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Item `128 * i + p`: the `p`-th item of the `i`-th stretch of 128. -/
def row (i : Fin 16) (p : Fin 128) : Fin 2048 := ⟨128 * i.val + p.val, by omega⟩

/-- A sum over the 2048 items is the sum over the 16 stretches of the sums over each stretch's 128 items. -/
theorem sum_rows {M : Type*} [AddCommMonoid M] (g : Fin 2048 → M) :
    ∑ P : Fin 2048, g P = ∑ i : Fin 16, ∑ p : Fin 128, g (row i p) := by
  rw [← Equiv.sum_comp (finProdFinEquiv (m := 16) (n := 128)) g, Fintype.sum_prod_type]
  refine Finset.sum_congr rfl fun i _ => Finset.sum_congr rfl fun p _ => congrArg g (Fin.ext ?_)
  show p.val + 128 * i.val = 128 * i.val + p.val
  omega

/-! ## The loss -/

/-- The hinge term of the ordered pair of items (P, Q) in batch row `b`. -/
def term (o l : FVec Ideal ⟨2, ![2048, 32]⟩ .f32) (mg : EReal) (b : Fin 32) (P Q : Fin 2048) : EReal :=
  max (mg - (o (ix2 P b) - o (ix2 Q b)) * (l (ix2 P b) - l (ix2 Q b))) 0

/-- The sum of every term. -/
def total (o l : FVec Ideal ⟨2, ![2048, 32]⟩ .f32) (mg : EReal) : EReal :=
  ∑ b : Fin 32, ∑ P : Fin 2048, ∑ Q : Fin 2048, term o l mg b P Q

/-- The loss: the total over 4096 (the divisor kept as its binary word, the same on both sides). -/
def loss (o l : FVec Ideal ⟨2, ![2048, 32]⟩ .f32) (mg : EReal) : EReal :=
  Ideal.div (total o l mg) (Ideal.ofBits .f32 0x45800000#32)

/-- The sum of the terms of tile (i, j): first items in stretch `i`, second items in stretch `j`. -/
def tile (o l : FVec Ideal ⟨2, ![2048, 32]⟩ .f32) (mg : EReal) (i j : Fin 16) : EReal :=
  ∑ b : Fin 32, ∑ p : Fin 128, ∑ q : Fin 128, term o l mg b (row i p) (row j q)

/-- The tile visited `n`-th in row-major order. -/
def tileAt (o l : FVec Ideal ⟨2, ![2048, 32]⟩ .f32) (mg : EReal) (n : ℕ) : EReal :=
  tile o l mg ⟨n / 16 % 16, Nat.mod_lt _ (by norm_num)⟩ ⟨n % 16, Nat.mod_lt _ (by norm_num)⟩

/-- The running sum after the `n`-th tile: it starts from zero at the first tile. -/
def run (o l : FVec Ideal ⟨2, ![2048, 32]⟩ .f32) (mg : EReal) : ℕ → EReal
  | 0 => 0 + tileAt o l mg 0
  | n + 1 => run o l mg n + tileAt o l mg (n + 1)

theorem run_eq_sum (o l : FVec Ideal ⟨2, ![2048, 32]⟩ .f32) (mg : EReal) (n : ℕ) :
    run o l mg n = ∑ t ∈ Finset.range (n + 1), tileAt o l mg t := by
  induction n with
  | zero => simp [run]
  | succ n ih => rw [run, ih, Finset.sum_range_succ _ (n + 1)]

/-- The tiles, all 256 of them in any grouping, hold every pair exactly once. -/
theorem sum_tiles (o l : FVec Ideal ⟨2, ![2048, 32]⟩ .f32) (mg : EReal) :
    ∑ i : Fin 16, ∑ j : Fin 16, tile o l mg i j = total o l mg := by
  unfold tile total
  calc ∑ i : Fin 16, ∑ j : Fin 16, ∑ b : Fin 32, ∑ p : Fin 128, ∑ q : Fin 128, term o l mg b (row i p) (row j q)
      = ∑ i : Fin 16, ∑ b : Fin 32, ∑ j : Fin 16, ∑ p : Fin 128, ∑ q : Fin 128, term o l mg b (row i p) (row j q) :=
        Finset.sum_congr rfl fun i _ => Finset.sum_comm
    _ = ∑ b : Fin 32, ∑ i : Fin 16, ∑ j : Fin 16, ∑ p : Fin 128, ∑ q : Fin 128, term o l mg b (row i p) (row j q) :=
        Finset.sum_comm
    _ = ∑ b : Fin 32, ∑ i : Fin 16, ∑ p : Fin 128, ∑ j : Fin 16, ∑ q : Fin 128, term o l mg b (row i p) (row j q) :=
        Finset.sum_congr rfl fun b _ => Finset.sum_congr rfl fun i _ => Finset.sum_comm
    _ = ∑ b : Fin 32, ∑ P : Fin 2048, ∑ Q : Fin 2048, term o l mg b P Q :=
        Finset.sum_congr rfl fun b _ => by
          rw [sum_rows]
          exact Finset.sum_congr rfl fun i _ => Finset.sum_congr rfl fun p _ => (sum_rows _).symm

/-- After the last of the 256 tiles the running sum is the total. -/
theorem run_last (o l : FVec Ideal ⟨2, ![2048, 32]⟩ .f32) (mg : EReal) : run o l mg 255 = total o l mg := by
  rw [run_eq_sum, ← sum_tiles, Finset.sum_range (fun t => tileAt o l mg t),
    ← Equiv.sum_comp (finProdFinEquiv (m := 16) (n := 16)) (fun t : Fin 256 => tileAt o l mg t.val), Fintype.sum_prod_type]
  refine Finset.sum_congr rfl fun i _ => Finset.sum_congr rfl fun j _ => ?_
  unfold tileAt
  have hv : (finProdFinEquiv (i, j) : Fin (16 * 16)).val = j.val + 16 * i.val := rfl
  congr 1
  · exact Fin.ext (by show (finProdFinEquiv (i, j) : Fin (16 * 16)).val / 16 % 16 = i.val; rw [hv]; omega)
  · exact Fin.ext (by show (finProdFinEquiv (i, j) : Fin (16 * 16)).val % 16 = j.val; rw [hv]; omega)

end Cert.Hinge

end
-- ==== Proof.RefLoss.lean ====
/-
  The reference, read at the extended reals, computes the loss of the specification.

  Its hinge array on [32, 2048, 2048] holds at (b, P, Q) the pair term of items P and Q in batch row b: the transposed
  scores and labels broadcast as a column over the second items and as a row over the first items, their differences
  multiplied, taken from the margin, clipped below at zero.  One reduction adds all of it to zero, and the quotient by
  4096 follows.
-/
import proofs.«158538_j21775484190872_1_alg».proof.Proof.Gen.ReferenceIdeal.Read
import proofs.«158538_j21775484190872_1_alg».proof.Proof.HingeSpec

noncomputable section

open scoped BigOperators
open Idealize.ShloMosaic Idealize.ShloMosaic.ValueIdx

namespace Cert.ReferenceIdeal.RefLoss

open Cert.ReferenceIdeal Cert.ReferenceIdeal.Read Cert.Hinge

/-- One element of the reference's hinge array is the pair term. -/
theorem hinge_apply (x0 x1 : FVec Ideal S2048x32 .f32) (x2 : FVec Ideal S_ .f32) (b : Fin 32) (P Q : Fin 2048) :
    val_main_v16 (F := Ideal) x0 x1 x2 (ix3 b P Q) = term x0 x1 (x2 ix0) b P Q := by
  have e1 : idx_main_v0 (idx_main_v2 (idx_main_v4 (ix3 b P Q))) = ix2 P b :=
    funext fun a => Fin.ext (match a with | ⟨0, _⟩ => rfl | ⟨1, _⟩ => rfl)
  have e2 : idx_main_v0 (idx_main_v3 (idx_main_v5 (ix3 b P Q))) = ix2 Q b :=
    funext fun a => Fin.ext (match a with | ⟨0, _⟩ => rfl | ⟨1, _⟩ => rfl)
  have e3 : idx_main_v1 (idx_main_v7 (idx_main_v9 (ix3 b P Q))) = ix2 P b :=
    funext fun a => Fin.ext (match a with | ⟨0, _⟩ => rfl | ⟨1, _⟩ => rfl)
  have e4 : idx_main_v1 (idx_main_v8 (idx_main_v10 (ix3 b P Q))) = ix2 Q b :=
    funext fun a => Fin.ext (match a with | ⟨0, _⟩ => rfl | ⟨1, _⟩ => rfl)
  have e5 : idx_main_v13 (ix3 b P Q) = ix0 := rfl
  simp only [val_main_v16_apply, val_main_v14_apply, val_main_v13_apply, val_main_v12_apply, val_main_v6_apply,
    val_main_v11_apply, val_main_v4_apply, val_main_v5_apply, val_main_v9_apply, val_main_v10_apply, val_main_v2_apply,
    val_main_v3_apply, val_main_v7_apply, val_main_v8_apply, val_main_v0_apply, val_main_v1_apply, val_main_v15_apply,
    val_main_cst_apply, e1, e2, e3, e4, e5]
  show max _ (Ideal.ofBits .f32 0x00000000#32) = _
  rw [Ideal.ofBits_zero_f32]
  rfl

/-- The reference's result is the loss. -/
theorem result_eq (x0 x1 : FVec Ideal S2048x32 .f32) (x2 : FVec Ideal S_ .f32) :
    val_main_v18 (F := Ideal) x0 x1 x2 = fun _ => loss x0 x1 (x2 ix0) := by
  funext i
  rw [val_main_v18_apply, val_main_v17_apply, sum_idx3]
  simp only [hinge_apply]
  show Ideal.div (Ideal.ofBits .f32 0x00000000#32 + total x0 x1 (x2 ix0)) (Ideal.ofBits .f32 0x45800000#32) = _
  rw [Ideal.ofBits_zero_f32, zero_add]
  rfl

end Cert.ReferenceIdeal.RefLoss

end
-- ==== Proof.TileSum.lean ====
/-
  One grid point's contribution, read at the extended reals.

  At a grid point the kernel body holds four blocks: the first items' scores and labels as columns `x1 x3 : [32, 128, 1]`,
  the second items' as rows `x2 x4 : [32, 1, 128]`, and the margin `x0 : [1, 1]`.  It broadcasts column against row, forms
  max (margin - (x1 - x2) * (x3 - x4)) 0  on [32, 128, 128], and adds it up one axis at a time: over the second items, then
  over the first items, then over the 32 batch rows.  Each one-axis sum is a `Fin`-indexed sum of its operand, so the
  scalar it ends with is the triple sum of the pair terms over (b, p, q).
-/
import proofs.«158538_j21775484190872_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen

/-- An extraction at a static position reads the vector at any index with those coordinates. -/
theorem extractAt_eq {s : Shape} {α : Type} (pos : Fin s.rank → Nat) (x : s.Idx → α) (h : ∀ a, pos a < s.size a) (k : s.Idx)
    (hk : ∀ a, (k a).val = pos a) : extractAt pos x h = x k :=
  congrArg x (funext fun a => Fin.ext (hk a).symm)

/-! ## The three one-axis sums -/

/-- The sum over the second items (the last axis of [32, 128, 128]). -/
theorem sum_q (src : FVec Ideal S32x128x128 .f32) (h : S32x128x128.Reduces [2] S32x128) (hφ : FKind.Formats .f32)
    (hacc : (0x00000000#32 : BitVec 32) = 0x00000000#32) (b : Fin 32) (p : Fin 128) :
    multiReduction .add [2] S32x128 src 0x00000000#32 h hφ hacc (ix2 b p) = ∑ q : Fin 128, src (ix3 b p q) :=
  (Ideal.multiReduction_add_single src 0x00000000#32 h hφ hacc (ix2 b p)).trans
    (Finset.sum_congr rfl fun q _ => congrArg src (funext fun c => Fin.ext (match c with
      | ⟨0, _⟩ => rfl | ⟨1, _⟩ => rfl | ⟨2, _⟩ => rfl)))

/-- The sum over the first items (the last axis of [32, 128]). -/
theorem sum_p (src : FVec Ideal S32x128 .f32) (h : S32x128.Reduces [1] S32) (hφ : FKind.Formats .f32)
    (hacc : (0x00000000#32 : BitVec 32) = 0x00000000#32) (b : Fin 32) :
    multiReduction .add [1] S32 src 0x00000000#32 h hφ hacc (ix1 b) = ∑ p : Fin 128, src (ix2 b p) :=
  (Ideal.multiReduction_add_single src 0x00000000#32 h hφ hacc (ix1 b)).trans
    (Finset.sum_congr rfl fun p _ => congrArg src (funext fun c => Fin.ext (match c with
      | ⟨0, _⟩ => rfl | ⟨1, _⟩ => rfl)))

/-- The sum over the batch rows (the last axis of [1, 32]). -/
theorem sum_b (src : FVec Ideal S1x32 .f32) (h : S1x32.Reduces [1] S1) (hφ : FKind.Formats .f32)
    (hacc : (0x00000000#32 : BitVec 32) = 0x00000000#32) (u : Fin 1) :
    multiReduction .add [1] S1 src 0x00000000#32 h hφ hacc (ix1 u) = ∑ b : Fin 32, src (ix2 u b) :=
  (Ideal.multiReduction_add_single src 0x00000000#32 h hφ hacc (ix1 u)).trans
    (Finset.sum_congr rfl fun b _ => congrArg src (funext fun c => Fin.ext (match c with
      | ⟨0, _⟩ => rfl | ⟨1, _⟩ => rfl)))

/-! ## Column against row -/

/-- A column block broadcast along the second items reads its one column. -/
theorem bcast_col (v : FVec Ideal S32x128x1 .f32) (h : S32x128x1.Broadcasts S32x128x128) (b : Fin 32) (p q : Fin 128) :
    broadcastTo S32x128x128 v h (ix3 b p q) = v (ix3 b p (0 : Fin 1)) :=
  broadcastTo_apply v h _ _ (fun a => match a with
    | ⟨0, _⟩ => by show b.val = if (32 : Nat) = 1 then 0 else b.val; rw [if_neg (by decide)]
    | ⟨1, _⟩ => by show p.val = if (128 : Nat) = 1 then 0 else p.val; rw [if_neg (by decide)]
    | ⟨2, _⟩ => by show 0 = if (1 : Nat) = 1 then 0 else q.val; rw [if_pos rfl])

/-- A row block broadcast along the first items reads its one row. -/
theorem bcast_row (v : FVec Ideal S32x1x128 .f32) (h : S32x1x128.Broadcasts S32x128x128) (b : Fin 32) (p q : Fin 128) :
    broadcastTo S32x128x128 v h (ix3 b p q) = v (ix3 b (0 : Fin 1) q) :=
  broadcastTo_apply v h _ _ (fun a => match a with
    | ⟨0, _⟩ => by show b.val = if (32 : Nat) = 1 then 0 else b.val; rw [if_neg (by decide)]
    | ⟨1, _⟩ => by show 0 = if (1 : Nat) = 1 then 0 else p.val; rw [if_pos rfl]
    | ⟨2, _⟩ => by show q.val = if (128 : Nat) = 1 then 0 else q.val; rw [if_neg (by decide)])

/-! ## The point's scalar -/

/-- The term of the pair (p, q) of a point's blocks in batch row `b`. -/
def pairTerm (x0 : FVec Ideal S1x1 .f32) (x1 : FVec Ideal S32x128x1 .f32) (x2 : FVec Ideal S32x1x128 .f32)
    (x3 : FVec Ideal S32x128x1 .f32) (x4 : FVec Ideal S32x1x128 .f32) (b : Fin 32) (p q : Fin 128) : EReal :=
  max (x0 (ix2 (0 : Fin 1) (0 : Fin 1))
      - (x1 (ix3 b p (0 : Fin 1)) - x2 (ix3 b (0 : Fin 1) q)) * (x3 (ix3 b p (0 : Fin 1)) - x4 (ix3 b (0 : Fin 1) q))) 0

/-- The scalar the body computes at a point is the sum of the pair terms of its blocks. -/
theorem pay4_eq (x0 : FVec Ideal S1x1 .f32) (x1 : FVec Ideal S32x128x1 .f32) (x2 : FVec Ideal S32x1x128 .f32)
    (x3 : FVec Ideal S32x128x1 .f32) (x4 : FVec Ideal S32x1x128 .f32) :
    k0_pay4 (F := Ideal) x1 x2 x3 x4 x0 = ∑ b : Fin 32, ∑ p : Fin 128, ∑ q : Fin 128, pairTerm x0 x1 x2 x3 x4 b p q := by
  unfold k0_pay4
  dsimp only
  refine (extractAt_eq _ _ _ (ix2 (0 : Fin 1) (0 : Fin 1)) (fun a => match a with | ⟨0, _⟩ => rfl | ⟨1, _⟩ => rfl)).trans ?_
  refine (shapeCast_a_1a_apply _ _ (0 : Fin 1) (0 : Fin 1)).trans ?_
  refine (sum_b _ _ _ _ (0 : Fin 1)).trans ?_
  refine Finset.sum_congr rfl fun b _ => ?_
  refine (shapeCast_a_1a_apply _ _ (0 : Fin 1) b).trans ?_
  refine (sum_p _ _ _ _ b).trans ?_
  refine Finset.sum_congr rfl fun p _ => ?_
  refine (sum_q _ _ _ _ b p).trans ?_
  refine Finset.sum_congr rfl fun q _ => ?_
  unfold pairTerm
  simp only [maximumf_apply, subf_apply, mulf_apply, broadcast_apply, bcast_col, bcast_row, shapeCast_self]
  rw [extractAt_eq _ x0 _ (ix2 (0 : Fin 1) (0 : Fin 1)) (fun a => match a with | ⟨0, _⟩ => rfl | ⟨1, _⟩ => rfl)]
  show max _ (Ideal.ofBits .f32 0x00000000#32) = _
  rw [Ideal.ofBits_zero_f32]

end Cert.KernelIdeal.Tile

end
-- ==== Proof.Blocks.lean ====
/-
  The point's blocks, read off the arrays the region finds.

  Before the region the host transposes the scores and labels to [32, 2048] and lays each out twice, as a column
  [32, 2048, 1] and as a row [32, 1, 2048]; the margin becomes a [1, 1] array.  At grid point t = 16 * i + j the column
  windows hold items 128 * i .. 128 * i + 127 and the row windows items 128 * j .. 128 * j + 127, all 32 batch rows, and
  the margin window its one word.  So an entry (b, p, 0) of a column block is the launched array at (128 * i + p, b), an
  entry (b, 0, q) of a row block the launched array at (128 * j + q, b): the pair terms of the point's blocks are the
  terms of tile (i, j).
-/
import proofs.«158538_j21775484190872_1_alg».proof.Proof.Gen.KernelIdeal.Frame
import proofs.«158538_j21775484190872_1_alg».proof.Proof.HingeSpec
import proofs.«158538_j21775484190872_1_alg».proof.Proof.TileSum
import Idealize.ShloMosaic.Lib.Pipeline.Value
import Idealize.ShloMosaic.Lib.StableHlo.Run
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The launched scores, labels and margin. -/
abbrev scores (c : Dev nD) : FVec Ideal S2048x32 .f32 := m ((c : Thread nD τ).loc main_arg0)
abbrev labels (c : Dev nD) : FVec Ideal S2048x32 .f32 := m ((c : Thread nD τ).loc main_arg1)
abbrev margin (c : Dev nD) : EReal := (m ((c : Thread nD τ).loc main_arg2) : FVec Ideal S_ .f32) ix0

/-! ## What the host lines before the region leave -/

theorem col_scores (c : Dev nD) : (V m c main_v2 : FVec Ideal S32x2048x1 .f32)
    = broadcastInDim S32x2048x1 ![0, 1] bcast_S32x2048_S32x2048x1_0_1 (transpose S32x2048 [1, 0] (scores m c) transposes_S2048x32_S32x2048_1_0) := by
  show StableHlo.after hostOps0 (fun b => m (c, b)) (Proc.devRef .tc main_v2) = _
  after_results

theorem row_scores (c : Dev nD) : (V m c main_v3 : FVec Ideal S32x1x2048 .f32)
    = broadcastInDim S32x1x2048 ![0, 2] bcast_S32x2048_S32x1x2048_0_2 (transpose S32x2048 [1, 0] (scores m c) transposes_S2048x32_S32x2048_1_0) := by
  show StableHlo.after hostOps0 (fun b => m (c, b)) (Proc.devRef .tc main_v3) = _
  after_results

theorem col_labels (c : Dev nD) : (V m c main_v4 : FVec Ideal S32x2048x1 .f32)
    = broadcastInDim S32x2048x1 ![0, 1] bcast_S32x2048_S32x2048x1_0_1 (transpose S32x2048 [1, 0] (labels m c) transposes_S2048x32_S32x2048_1_0) := by
  show StableHlo.after hostOps0 (fun b => m (c, b)) (Proc.devRef .tc main_v4) = _
  after_results

theorem row_labels (c : Dev nD) : (V m c main_v5 : FVec Ideal S32x1x2048 .f32)
    = broadcastInDim S32x1x2048 ![0, 2] bcast_S32x2048_S32x1x2048_0_2 (transpose S32x2048 [1, 0] (labels m c) transposes_S2048x32_S32x2048_1_0) := by
  show StableHlo.after hostOps0 (fun b => m (c, b)) (Proc.devRef .tc main_v5) = _
  after_results

theorem margin_word (c : Dev nD) : (V m c main_v6 : FVec Ideal S1x1 .f32)
    = shapeCast S1x1 (m ((c : Thread nD τ).loc main_arg2) : FVec Ideal S_ .f32) shapeCasts_S_S1x1 := by
  show StableHlo.after hostOps0 (fun b => m (c, b)) (Proc.devRef .tc main_v6) = _
  after_results
  rfl

/-! ## The same, read at an index -/

/-- A transposed array laid out as a column: entry (b, P, 0) is the array at (P, b). -/
theorem col_apply (x : FVec Ideal S2048x32 .f32) (b : Fin 32) (P : Fin 2048) (u : Fin 1) :
    broadcastInDim S32x2048x1 ![0, 1] bcast_S32x2048_S32x2048x1_0_1 (transpose S32x2048 [1, 0] x transposes_S2048x32_S32x2048_1_0) (ix3 b P u)
      = x (ix2 P b) :=
  (broadcastInDim_apply _ bcast_S32x2048_S32x2048x1_0_1 _ (ix3 b P u) (ix2 b P) (fun a => match a with
    | ⟨0, _⟩ => by show b.val = if (32 : Nat) = 1 then 0 else b.val; rw [if_neg (by decide)]
    | ⟨1, _⟩ => by show P.val = if (2048 : Nat) = 1 then 0 else P.val; rw [if_neg (by decide)])).trans
    (transpose_ix2_apply x transposes_S2048x32_S32x2048_1_0 b P)

/-- A transposed array laid out as a row: entry (b, 0, Q) is the array at (Q, b). -/
theorem row_apply (x : FVec Ideal S2048x32 .f32) (b : Fin 32) (u : Fin 1) (Q : Fin 2048) :
    broadcastInDim S32x1x2048 ![0, 2] bcast_S32x2048_S32x1x2048_0_2 (transpose S32x2048 [1, 0] x transposes_S2048x32_S32x2048_1_0) (ix3 b u Q)
      = x (ix2 Q b) :=
  (broadcastInDim_apply _ bcast_S32x2048_S32x1x2048_0_2 _ (ix3 b u Q) (ix2 b Q) (fun a => match a with
    | ⟨0, _⟩ => by show b.val = if (32 : Nat) = 1 then 0 else b.val; rw [if_neg (by decide)]
    | ⟨1, _⟩ => by show Q.val = if (2048 : Nat) = 1 then 0 else Q.val; rw [if_neg (by decide)])).trans
    (transpose_ix2_apply x transposes_S2048x32_S32x2048_1_0 b Q)

/-! ## The windows' block indices over the grid -/

/-- Point t = 16 * i + j: the column windows are at block i, the row windows at block j, every other index is 0. -/
theorem idx_facts : ∀ t : Fin cfg0.N,
    win0_0.index t (0 : Fin 2) = 0 ∧ win0_0.index t (1 : Fin 2) = 0
    ∧ win0_1.index t (0 : Fin 3) = 0 ∧ win0_1.index t (1 : Fin 3) = t.val / 16 ∧ win0_1.index t (2 : Fin 3) = 0
    ∧ win0_2.index t (0 : Fin 3) = 0 ∧ win0_2.index t (1 : Fin 3) = 0 ∧ win0_2.index t (2 : Fin 3) = t.val % 16
    ∧ win0_3.index t (0 : Fin 3) = 0 ∧ win0_3.index t (1 : Fin 3) = t.val / 16 ∧ win0_3.index t (2 : Fin 3) = 0
    ∧ win0_4.index t (0 : Fin 3) = 0 ∧ win0_4.index t (1 : Fin 3) = 0 ∧ win0_4.index t (2 : Fin 3) = t.val % 16 :=
  (by decide +kernel : ∀ t : Fin grid0.N, _)

/-- The stretch of first items and the stretch of second items of point `t`. -/
def ti (t : Fin cfg0.N) : Fin 16 := ⟨t.val / 16 % 16, Nat.mod_lt _ (by norm_num)⟩
def tj (t : Fin cfg0.N) : Fin 16 := ⟨t.val % 16, Nat.mod_lt _ (by norm_num)⟩

/-! ## The blocks at their literal types -/

abbrev blk0 (c : Dev nD) (t : Fin cfg0.N) : FVec Ideal S1x1 .f32 := iblk m c 0 t
abbrev blk1 (c : Dev nD) (t : Fin cfg0.N) : FVec Ideal S32x128x1 .f32 := iblk m c 1 t
abbrev blk2 (c : Dev nD) (t : Fin cfg0.N) : FVec Ideal S32x1x128 .f32 := iblk m c 2 t
abbrev blk3 (c : Dev nD) (t : Fin cfg0.N) : FVec Ideal S32x128x1 .f32 := iblk m c 3 t
abbrev blk4 (c : Dev nD) (t : Fin cfg0.N) : FVec Ideal S32x1x128 .f32 := iblk m c 4 t

theorem blk0_apply (c : Dev nD) (t : Fin cfg0.N) : blk0 m c t (ix2 (0 : Fin 1) (0 : Fin 1)) = margin m c := by
  show (V m c main_v6 : FVec Ideal S1x1 .f32) (((cfg0.win 0).blk t).view.emb (ix2 (0 : Fin 1) (0 : Fin 1))) = _
  rw [margin_word]
  exact congrArg (m ((c : Thread nD τ).loc main_arg2) : FVec Ideal S_ .f32) (funext fun a => a.elim0)

theorem blk1_apply (c : Dev nD) (t : Fin cfg0.N) (b : Fin 32) (p : Fin 128) :
    blk1 m c t (ix3 b p (0 : Fin 1)) = scores m c (ix2 (Hinge.row (ti t) p) b) := by
  have hN : t.val < 256 := lt_of_lt_of_eq t.isLt (show cfg0.N = 256 from N_0)
  obtain ⟨-, -, e0, e1, e2, -⟩ := idx_facts t
  show (V m c main_v2 : FVec Ideal S32x2048x1 .f32) (((cfg0.win 1).blk t).view.emb (ix3 b p (0 : Fin 1))) = _
  have e : ((cfg0.win 1).blk t).view.emb (ix3 b p (0 : Fin 1)) = ix3 b (Hinge.row (ti t) p) (0 : Fin 1) := by
    funext a; apply Fin.ext
    match a with
    | ⟨0, _⟩ => show win0_1.index t (0 : Fin 3) * 32 + 1 * b.val = b.val; rw [e0]; omega
    | ⟨1, _⟩ => show win0_1.index t (1 : Fin 3) * 128 + 1 * p.val = 128 * (t.val / 16 % 16) + p.val; rw [e1]; omega
    | ⟨2, _⟩ => show win0_1.index t (2 : Fin 3) * 1 + 1 * 0 = 0; rw [e2]
  rw [e, col_scores]
  exact col_apply (scores m c) b _ 0

theorem blk3_apply (c : Dev nD) (t : Fin cfg0.N) (b : Fin 32) (p : Fin 128) :
    blk3 m c t (ix3 b p (0 : Fin 1)) = labels m c (ix2 (Hinge.row (ti t) p) b) := by
  have hN : t.val < 256 := lt_of_lt_of_eq t.isLt (show cfg0.N = 256 from N_0)
  obtain ⟨-, -, -, -, -, -, -, -, e0, e1, e2, -⟩ := idx_facts t
  show (V m c main_v4 : FVec Ideal S32x2048x1 .f32) (((cfg0.win 3).blk t).view.emb (ix3 b p (0 : Fin 1))) = _
  have e : ((cfg0.win 3).blk t).view.emb (ix3 b p (0 : Fin 1)) = ix3 b (Hinge.row (ti t) p) (0 : Fin 1) := by
    funext a; apply Fin.ext
    match a with
    | ⟨0, _⟩ => show win0_3.index t (0 : Fin 3) * 32 + 1 * b.val = b.val; rw [e0]; omega
    | ⟨1, _⟩ => show win0_3.index t (1 : Fin 3) * 128 + 1 * p.val = 128 * (t.val / 16 % 16) + p.val; rw [e1]; omega
    | ⟨2, _⟩ => show win0_3.index t (2 : Fin 3) * 1 + 1 * 0 = 0; rw [e2]
  rw [e, col_labels]
  exact col_apply (labels m c) b _ 0

theorem blk2_apply (c : Dev nD) (t : Fin cfg0.N) (b : Fin 32) (q : Fin 128) :
    blk2 m c t (ix3 b (0 : Fin 1) q) = scores m c (ix2 (Hinge.row (tj t) q) b) := by
  obtain ⟨-, -, -, -, -, e0, e1, e2, -⟩ := idx_facts t
  show (V m c main_v3 : FVec Ideal S32x1x2048 .f32) (((cfg0.win 2).blk t).view.emb (ix3 b (0 : Fin 1) q)) = _
  have e : ((cfg0.win 2).blk t).view.emb (ix3 b (0 : Fin 1) q) = ix3 b (0 : Fin 1) (Hinge.row (tj t) q) := by
    funext a; apply Fin.ext
    match a with
    | ⟨0, _⟩ => show win0_2.index t (0 : Fin 3) * 32 + 1 * b.val = b.val; rw [e0]; omega
    | ⟨1, _⟩ => show win0_2.index t (1 : Fin 3) * 1 + 1 * 0 = 0; rw [e1]
    | ⟨2, _⟩ => show win0_2.index t (2 : Fin 3) * 128 + 1 * q.val = 128 * (t.val % 16) + q.val; rw [e2]; omega
  rw [e, row_scores]
  exact row_apply (scores m c) b 0 _

theorem blk4_apply (c : Dev nD) (t : Fin cfg0.N) (b : Fin 32) (q : Fin 128) :
    blk4 m c t (ix3 b (0 : Fin 1) q) = labels m c (ix2 (Hinge.row (tj t) q) b) := by
  obtain ⟨-, -, -, -, -, -, -, -, -, -, -, e0, e1, e2⟩ := idx_facts t
  show (V m c main_v5 : FVec Ideal S32x1x2048 .f32) (((cfg0.win 4).blk t).view.emb (ix3 b (0 : Fin 1) q)) = _
  have e : ((cfg0.win 4).blk t).view.emb (ix3 b (0 : Fin 1) q) = ix3 b (0 : Fin 1) (Hinge.row (tj t) q) := by
    funext a; apply Fin.ext
    match a with
    | ⟨0, _⟩ => show win0_4.index t (0 : Fin 3) * 32 + 1 * b.val = b.val; rw [e0]; omega
    | ⟨1, _⟩ => show win0_4.index t (1 : Fin 3) * 1 + 1 * 0 = 0; rw [e1]
    | ⟨2, _⟩ => show win0_4.index t (2 : Fin 3) * 128 + 1 * q.val = 128 * (t.val % 16) + q.val; rw [e2]; omega
  rw [e, row_labels]
  exact row_apply (labels m c) b 0 _

/-- The pair terms of point `t`'s blocks add up to the tile visited `t`-th. -/
theorem tile_eq (c : Dev nD) (t : Fin cfg0.N) :
    ∑ b : Fin 32, ∑ p : Fin 128, ∑ q : Fin 128, Tile.pairTerm (blk0 m c t) (blk1 m c t) (blk2 m c t) (blk3 m c t) (blk4 m c t) b p q
      = Hinge.tileAt (scores m c) (labels m c) (margin m c) t.val := by
  show _ = Hinge.tile (scores m c) (labels m c) (margin m c) (ti t) (tj t)
  unfold Hinge.tile
  refine Finset.sum_congr rfl fun b _ => Finset.sum_congr rfl fun p _ => Finset.sum_congr rfl fun q _ => ?_
  unfold Tile.pairTerm Hinge.term
  rw [blk0_apply, blk1_apply, blk2_apply, blk3_apply, blk4_apply]

end Cert.KernelIdeal.Blocks

end
-- ==== Proof.Pieces.lean ====
/-
  What each control case of the body leaves in the accumulator's one-word block, as a value of the point's blocks.

  The body adds the point's scalar `s` (the sum of its pair terms) to the accumulator.  At the first point it first
  stores zero and reads it back, so it leaves  0 + s;  at a middle point it leaves  acc + s  over what the point before
  left;  at the last point it stores  acc + s,  reads it back and stores its quotient by 4096.  Each case's covering
  stores are read back here as one expression over the body's named payloads, at any float instance.
-/
import proofs.«158538_j21775484190872_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the accumulator plus the point's scalar. -/
theorem out_B (c : Dev nD) (i : grid0.Coords) (arg2 : Memref sig .tc .vmem S1x1 .f32) (harg2 : arg2.IsWhole) (arg3 : Memref sig .tc .vmem S32x128x1 .f32) (harg3 : arg3.IsWhole) (arg4 : Memref sig .tc .vmem S32x1x128 .f32) (harg4 : arg4.IsWhole) (arg5 : Memref sig .tc .vmem S32x128x1 .f32) (harg5 : arg5.IsWhole) (arg6 : Memref sig .tc .vmem S32x1x128 .f32) (harg6 : arg6.IsWhole) (arg7 : Memref sig .tc .vmem S1x1 .f32) (harg7 : arg7.IsWhole) (hc0 : ¬cond0_0 i) (hc1 : ¬cond0_1 i)
    (x0 : Vec F S1x1 .f32) (x1 : Vec F S32x128x1 .f32) (x2 : Vec F S32x1x128 .f32) (x3 : Vec F S32x128x1 .f32) (x4 : Vec F S32x1x128 .f32) (xo5 : Vec F S1x1 .f32) :
    out0_B_5 c i arg2 harg2 arg3 harg3 arg4 harg4 arg5 harg5 arg6 harg6 arg7 harg7 hc0 hc1 x0 x1 x2 x3 x4 xo5 = k0_pay1 (k0_pay4 x1 x2 x3 x4 x0) (k0_pay5 xo5) := by
  unfold out0_B_5
  rw [View.read_writes_eq_canon _ _ _ (cover0_B_5 c i arg2 harg2 arg3 harg3 arg4 harg4 arg5 harg5 arg6 harg6 arg7 harg7 hc0 hc1 x0 x1 x2 x3 x4 xo5)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, View.ld_unit_zero (S := S1x1) hz2, View.ld_unit_zero (S := S32x128x1) hz3, View.ld_unit_zero (S := S32x1x128) hz3]

/-- The first point: zero is stored and read back, then the point's scalar is added to it. -/
theorem out_A (c : Dev nD) (i : grid0.Coords) (arg2 : Memref sig .tc .vmem S1x1 .f32) (harg2 : arg2.IsWhole) (arg3 : Memref sig .tc .vmem S32x128x1 .f32) (harg3 : arg3.IsWhole) (arg4 : Memref sig .tc .vmem S32x1x128 .f32) (harg4 : arg4.IsWhole) (arg5 : Memref sig .tc .vmem S32x128x1 .f32) (harg5 : arg5.IsWhole) (arg6 : Memref sig .tc .vmem S32x1x128 .f32) (harg6 : arg6.IsWhole) (arg7 : Memref sig .tc .vmem S1x1 .f32) (harg7 : arg7.IsWhole) (hc0 : cond0_0 i) (hc1 : ¬cond0_1 i)
    (x0 : Vec F S1x1 .f32) (x1 : Vec F S32x128x1 .f32) (x2 : Vec F S32x1x128 .f32) (x3 : Vec F S32x128x1 .f32) (x4 : Vec F S32x1x128 .f32) :
    out0_A_5 c i arg2 harg2 arg3 harg3 arg4 harg4 arg5 harg5 arg6 harg6 arg7 harg7 hc0 hc1 x0 x1 x2 x3 x4 = k0_pay1 (k0_pay4 x1 x2 x3 x4 x0) (k0_pay5 (k0_pay3 (F := F))) := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread,
    harg7.read_unread, View.ld_unit_zero (S := S1x1) hz2, View.ld_unit_zero (S := S32x128x1) hz3, View.ld_unit_zero (S := S32x1x128) hz3]

/-- The last point: the accumulator plus the point's scalar is stored, read back, and its quotient by 4096 stored. -/
theorem out_C (c : Dev nD) (i : grid0.Coords) (arg2 : Memref sig .tc .vmem S1x1 .f32) (harg2 : arg2.IsWhole) (arg3 : Memref sig .tc .vmem S32x128x1 .f32) (harg3 : arg3.IsWhole) (arg4 : Memref sig .tc .vmem S32x1x128 .f32) (harg4 : arg4.IsWhole) (arg5 : Memref sig .tc .vmem S32x128x1 .f32) (harg5 : arg5.IsWhole) (arg6 : Memref sig .tc .vmem S32x1x128 .f32) (harg6 : arg6.IsWhole) (arg7 : Memref sig .tc .vmem S1x1 .f32) (harg7 : arg7.IsWhole) (hc0 : ¬cond0_0 i) (hc1 : cond0_1 i)
    (x0 : Vec F S1x1 .f32) (x1 : Vec F S32x128x1 .f32) (x2 : Vec F S32x1x128 .f32) (x3 : Vec F S32x128x1 .f32) (x4 : Vec F S32x1x128 .f32) (xo5 : Vec F S1x1 .f32) :
    out0_C_5 c i arg2 harg2 arg3 harg3 arg4 harg4 arg5 harg5 arg6 harg6 arg7 harg7 hc0 hc1 x0 x1 x2 x3 x4 xo5 = k0_pay2 (k0_pay1 (k0_pay4 x1 x2 x3 x4 x0) (k0_pay5 xo5)) := by
  unfold out0_C_5
  rw [View.read_writes_eq_canon _ _ _ (cover0_C_5 c i arg2 harg2 arg3 harg3 arg4 harg4 arg5 harg5 arg6 harg6 arg7 harg7 hc0 hc1 x0 x1 x2 x3 x4 xo5)]
  unfold kernelRun0_C
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread,
    harg7.read_unread, View.ld_unit_zero (S := S1x1) hz2, View.ld_unit_zero (S := S32x128x1) hz3, View.ld_unit_zero (S := S32x1x128) hz3]

end Cert.KernelIdeal.Pieces

end
-- ==== Proof.Accum.lean ====
/-
  The accumulator, point by point.

  Reading each case's value at the extended reals: the first point leaves  0 + s_0,  a middle point  acc + s_t,  the last
  (acc + s_255) / 4096,  where s_t is the sum of the pair terms of point t's blocks, which is the sum of the terms of the
  tile visited t-th.  By induction on the point the accumulator after point n < 255 is the specification's running sum
  after n tiles; after point 255 it is the running sum over all 256 tiles divided by 4096, and that running sum is the
  total over every pair: the loss.
-/
import proofs.«158538_j21775484190872_1_alg».proof.Proof.Gen.KernelIdeal.Frame
import proofs.«158538_j21775484190872_1_alg».proof.Proof.HingeSpec
import proofs.«158538_j21775484190872_1_alg».proof.Proof.TileSum
import proofs.«158538_j21775484190872_1_alg».proof.Proof.Pieces
import proofs.«158538_j21775484190872_1_alg».proof.Proof.Blocks

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.KernelIdeal.Blocks

/-! ## The three cases' values over any blocks -/

/-- The first point's value: zero plus the blocks' pair terms. -/
theorem first_val (x0 : FVec Ideal S1x1 .f32) (x1 : FVec Ideal S32x128x1 .f32) (x2 : FVec Ideal S32x1x128 .f32) (x3 : FVec Ideal S32x128x1 .f32) (x4 : FVec Ideal S32x1x128 .f32) (j : S1x1.Idx) :
    k0_pay1 (F := Ideal) (k0_pay4 x1 x2 x3 x4 x0) (k0_pay5 (k0_pay3 (F := Ideal))) j
      = 0 + ∑ b : Fin 32, ∑ p : Fin 128, ∑ q : Fin 128, Tile.pairTerm x0 x1 x2 x3 x4 b p q := by
  unfold k0_pay1 k0_pay5 k0_pay3
  dsimp only
  rw [shapeCast_self, Tile.pay4_eq]
  show Ideal.ofBits .f32 0x00000000#32 + _ = _
  rw [Ideal.ofBits_zero_f32]
  rfl

/-- A middle point's value: the accumulator plus the blocks' pair terms. -/
theorem mid_val (x0 : FVec Ideal S1x1 .f32) (x1 : FVec Ideal S32x128x1 .f32) (x2 : FVec Ideal S32x1x128 .f32) (x3 : FVec Ideal S32x128x1 .f32) (x4 : FVec Ideal S32x1x128 .f32) (acc : FVec Ideal S1x1 .f32) (j : S1x1.Idx) :
    k0_pay1 (F := Ideal) (k0_pay4 x1 x2 x3 x4 x0) (k0_pay5 acc) j
      = acc j + ∑ b : Fin 32, ∑ p : Fin 128, ∑ q : Fin 128, Tile.pairTerm x0 x1 x2 x3 x4 b p q := by
  unfold k0_pay1 k0_pay5
  dsimp only
  rw [shapeCast_self, Tile.pay4_eq]
  rfl

/-- The last point's value: the same sum, over 4096. -/
theorem last_val (x0 : FVec Ideal S1x1 .f32) (x1 : FVec Ideal S32x128x1 .f32) (x2 : FVec Ideal S32x1x128 .f32) (x3 : FVec Ideal S32x128x1 .f32) (x4 : FVec Ideal S32x1x128 .f32) (acc : FVec Ideal S1x1 .f32) (j : S1x1.Idx) :
    k0_pay2 (F := Ideal) (k0_pay1 (F := Ideal) (k0_pay4 x1 x2 x3 x4 x0) (k0_pay5 acc)) j
      = Ideal.div (acc j + ∑ b : Fin 32, ∑ p : Fin 128, ∑ q : Fin 128, Tile.pairTerm x0 x1 x2 x3 x4 b p q)
          (Ideal.ofBits .f32 0x45800000#32) := by
  unfold k0_pay2
  rw [shapeCast_self]
  show Ideal.div (k0_pay1 (F := Ideal) (k0_pay4 x1 x2 x3 x4 x0) (k0_pay5 acc) j) _ = _
  rw [mid_val]
  rfl

/-! ## The accumulator at each kind of point -/

variable (m : (ℓ : Loc nD τ sig) → Buf (Elt Ideal) ℓ)

/-- The accumulator after point `n`, at its literal type. -/
abbrev accAt (c : Dev nD) (n : ℕ) (h : n < cfg0.N) : FVec Ideal S1x1 .f32 := outsAt0 m c n h

theorem at_first (c : Dev nD) (t : Fin cfg0.N) (h0 : t.val % 256 = 0) (h1 : ¬t.val % 256 = 255) :
    accAt m c t.val t.isLt = fun _ => 0 + Hinge.tileAt (scores m c) (labels m c) (margin m c) t.val :=
  (outsAt0_A m c t h0 h1).trans
    ((Pieces.out_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t) (iblk m c 4 t)).trans
      (funext fun j => (first_val (blk0 m c t) (blk1 m c t) (blk2 m c t) (blk3 m c t) (blk4 m c t) j).trans (by rw [tile_eq])))

theorem at_mid (c : Dev nD) (t : Fin cfg0.N) (h0 : ¬t.val % 256 = 0) (h1 : ¬t.val % 256 = 255) :
    accAt m c t.val t.isLt = fun j => accAt m c (t.val - 1) (Nat.lt_of_le_of_lt (Nat.sub_le _ _) t.isLt) j
      + Hinge.tileAt (scores m c) (labels m c) (margin m c) t.val :=
  (outsAt0_B m c t h0 h1).trans
    ((Pieces.out_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk m c 0 t) (iblk m c 1 t) (iblk m c 2 t) (iblk m c 3 t) (iblk m c 4 t)
        (outsAt0 m c (t.val - 1) (Nat.lt_of_le_of_lt (Nat.sub_le _ _) t.isLt))).trans
      (funext fun j => (mid_val (blk0 m c t) (blk1 m c t) (blk2 m c t) (blk3 m c t) (blk4 m c t) (accAt m c (t.val - 1) (Nat.lt_of_le_of_lt (Nat.sub_le _ _) t.isLt)) j).trans (by rw [tile_eq])))

theorem at_last (c : Dev nD) (t : Fin cfg0.N) (h0 : ¬t.val % 256 = 0) (h1 : t.val % 256 = 255) :
    accAt m c t.val t.isLt = fun j => Ideal.div (accAt m c (t.val - 1) (Nat.lt_of_le_of_lt (Nat.sub_le _ _) t.isLt) j
      + Hinge.tileAt (scores m c) (labels m c) (margin m c) t.val) (Ideal.ofBits .f32 0x45800000#32) :=
  (outsAt0_C m c t h0 h1).trans
    ((Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (iblk m c 4 t)
        (outsAt0 m c (t.val - 1) (Nat.lt_of_le_of_lt (Nat.sub_le _ _) t.isLt))).trans
      (funext fun j => (last_val (blk0 m c t) (blk1 m c t) (blk2 m c t) (blk3 m c t) (blk4 m c t) (accAt m c (t.val - 1) (Nat.lt_of_le_of_lt (Nat.sub_le _ _) t.isLt)) j).trans (by rw [tile_eq])))

/-! ## The induction -/

/-- Before the last point the accumulator is the running sum of the tiles visited so far. -/
theorem acc_run (c : Dev nD) : ∀ (n : ℕ) (h : n < cfg0.N), n < 255 →
    accAt m c n h = fun _ => Hinge.run (scores m c) (labels m c) (margin m c) n
  | 0, h, _ => at_first m c ⟨0, h⟩ rfl (by dsimp only; omega)
  | n + 1, h, hlt => by
    have e := at_mid m c ⟨n + 1, h⟩ (by dsimp only; omega) (by dsimp only; omega)
    refine e.trans (funext fun j => ?_)
    show accAt m c n _ j + _ = Hinge.run (scores m c) (labels m c) (margin m c) n + _
    rw [acc_run c n _ (by omega)]

/-- After the last point it is the loss. -/
theorem acc_last (c : Dev nD) (h : 255 < cfg0.N) :
    accAt m c 255 h = fun _ => Hinge.loss (scores m c) (labels m c) (margin m c) := by
  have e := at_last m c ⟨255, h⟩ (by dsimp only; omega) (by dsimp only)
  refine e.trans (funext fun j => ?_)
  show Ideal.div (accAt m c 254 _ j + _) _ = _
  rw [acc_run m c 254 _ (by norm_num)]
  show Ideal.div (Hinge.run (scores m c) (labels m c) (margin m c) 255) _ = _
  rw [Hinge.run_last]
  rfl

end Cert.KernelIdeal.Accum

end
-- ==== Proof.Result.lean ====
/-
  The kernel's result.

  The accumulator's one-word block is written back once, after the last point, when it holds the loss; that block is the
  whole [1, 1] result array of the region.  The host line after the region reshapes it to a scalar.  So every weakly fair
  execution of the program ends with the result buffer holding the loss of the launched arrays, which it leaves unchanged.
-/
import proofs.«158538_j21775484190872_1_alg».proof.Proof.Gen.KernelIdeal.Frame
import proofs.«158538_j21775484190872_1_alg».proof.Proof.HingeSpec
import proofs.«158538_j21775484190872_1_alg».proof.Proof.Blocks
import proofs.«158538_j21775484190872_1_alg».proof.Proof.Accum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks

variable (m : (ℓ : Loc nD τ sig) → Buf (Elt Ideal) ℓ) (ρ : Dev nD → PrngReg)

/-- The loss of the launched arrays. -/
abbrev lossWord (c : Dev nD) : EReal := Hinge.loss (scores m c) (labels m c) (margin m c)

/-- The region's [1, 1] result array holding it. -/
abbrev lossArr (c : Dev nD) : Buf (Elt Ideal) ((c : Thread nD τ).loc main_v7) := fun _ => lossWord m c

/-- The scalar result holding it. -/
abbrev lossScalar (c : Dev nD) : Buf (Elt Ideal) ((c : Thread nD τ).loc main_v8) := fun _ => lossWord m c

/-- The accumulator after the point numbered 255. -/
theorem acc_of_eq (c : Dev nD) (n : ℕ) (h : n < cfg0.N) (e : n = 255) : Accum.accAt m c n h = fun _ => lossWord m c := by
  subst e
  exact Accum.acc_last m c h

/-- The one write-back, after the last point, writes the loss. -/
theorem flushed_eq (c : Dev nD) (t : Fin cfg0.N) (hf : (cfg0.win 5).flush t = true) :
    (dats m 0 c).flushed 5 t = ((cfg0.win 5).blk t).view.read (Elt Ideal) (lossArr m c) := by
  have hN : cfg0.N = 256 := N_0
  have h255 : t.val = 255 := by have := (flush0_5 t).mp hf; have := t.isLt; omega
  show (cfg0.win 5).cut (grid0.coords t) ((dats m 0 c).after 5 t) = _
  rw [after0_5]
  show (cfg0.win 5).cut (grid0.coords t) (Accum.accAt m c t.val t.isLt) = _
  rw [acc_of_eq m c t.val t.isLt h255]
  rfl

/-- The accumulator's window sits at block (0, 0) at every point. -/
theorem idx_out : ∀ t : Fin cfg0.N, win0_5.index t (0 : Fin 2) = 0 ∧ win0_5.index t (1 : Fin 2) = 0 :=
  (by decide +kernel : ∀ t : Fin grid0.N, _)

/-- An index of the result array is in point `t`'s block iff each coordinate is in the block's range on its axis. -/
theorem mem_blk (t : Fin cfg0.N) (i : S1x1.Idx) :
    i ∈ ((cfg0.win 5).blk t).view.set ↔ ∀ a : Fin 2, win0_5.index t a * S1x1.size a ≤ (i a).val ∧ (i a).val < win0_5.index t a * S1x1.size a + S1x1.size a := by
  show i ∈ ((View.whole main_v7).slice (win0_5.rect t)).set ↔ _
  rw [View.set_slice_whole, Rect.mem_set_unit]
  exact Iff.rfl

/-- After the region the result array holds the loss: the last point's block is the whole array. -/
theorem final (c : Dev nD) : (dats m 0 c).arrAt 5 cfg0.N = lossArr m c :=
  (dats m 0 c).arrAt_eq_of_cover 5 (lossArr m c) (flushed_eq m c) fun i => by
    have hN : cfg0.N = 256 := N_0
    refine ⟨⟨255, by rw [hN]; norm_num⟩, (flush0_5 _).mpr rfl, ?_⟩
    rw [mem_blk]
    obtain ⟨e0, e1⟩ := idx_out ⟨255, by rw [hN]; norm_num⟩
    intro a
    have h0 : (i 0 : Nat) < 1 := (i 0).isLt
    have h1 : (i 1 : Nat) < 1 := (i 1).isLt
    match a with
    | ⟨0, _⟩ => show win0_5.index _ (0 : Fin 2) * 1 ≤ (i 0).val ∧ (i 0).val < win0_5.index _ (0 : Fin 2) * 1 + 1; rw [e0]; omega
    | ⟨1, _⟩ => show win0_5.index _ (1 : Fin 2) * 1 ≤ (i 1).val ∧ (i 1).val < win0_5.index _ (1 : Fin 2) * 1 + 1; rw [e1]; omega

/-- The host line after the region reshapes the one word to a scalar. -/
theorem tail_eq (c : Dev nD) : Pipeline.afterTail₀ cfgs (dats m) 0 (V0 m) [hostOps1] c main_v8 = lossScalar m c := by
  unfold Pipeline.afterTail₀
  show StableHlo.after hostOps1 _ (Proc.devRef .tc main_v8) = _
  after_results
  rw [(Pipeline.withArrays_arr spec0 launch0.win.arr_inj c _ _ 5).trans (final m c)]
  rfl

/-- The run, read: the result at the loss, the arguments unchanged. -/
theorem run : θ_run defs (onTc (τ := τ) (main (F := Ideal))) ⟨m, fun _ => 0, ρ⟩ fun r => ∀ c : Dev nD,
      r.2.mem ((c : Thread nD τ).loc main_v8) = lossScalar m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  The pairwise max-margin hinge loss: a tiled kernel against one whole-array reduction.

  Both programs take scores and labels of shape [2048, 32] (item, batch row) and a scalar margin, and return
      ( Σ over batch rows b and ordered pairs of items (P, Q) of  max (margin - (o P b - o Q b) * (l P b - l Q b)) 0 ) / 4096.
  The reference forms the whole [32, 2048, 2048] array of terms and reduces it once.  The kernel cuts the pairs into
  16 x 16 tiles of 128 x 128, adds a tile's terms with three one-axis sums, and carries the running sum in a one-word
  block across the 256 grid points: zeroed before the first point, divided by 4096 after the last, written back once.

  At the extended reals the operations on the two sides are the same ones on the same entries, and only the grouping of
  the sum differs; addition there is commutative and associative, so the results agree for all inputs, finite or not
  (the precondition is never opened).  The modules: the specification and the regrouping law; the reference's result
  is the loss; a point's scalar is the sum of its blocks' pair terms; what each control case leaves in the accumulator;
  the blocks read off the launched arrays; the induction over the points; the write-back, the reshape after the region
  and the kernel's run.  The idealization rewrote nothing, so its statement is `True`.
-/
import proofs.«158538_j21775484190872_1_alg».proof.Defs
import proofs.«158538_j21775484190872_1_alg».proof.Proof.Gen.Kernel
import proofs.«158538_j21775484190872_1_alg».proof.Proof.Gen.Kernel.Skeleton
import proofs.«158538_j21775484190872_1_alg».proof.Proof.Gen.Kernel.Launch
import proofs.«158538_j21775484190872_1_alg».proof.Proof.Gen.Kernel.Points
import proofs.«158538_j21775484190872_1_alg».proof.Proof.Gen.Kernel.Frame
import proofs.«158538_j21775484190872_1_alg».proof.Proof.Gen.KernelIdeal
import proofs.«158538_j21775484190872_1_alg».proof.Proof.Gen.KernelIdeal.Skeleton
import proofs.«158538_j21775484190872_1_alg».proof.Proof.Gen.KernelIdeal.Launch
import proofs.«158538_j21775484190872_1_alg».proof.Proof.Gen.KernelIdeal.Points
import proofs.«158538_j21775484190872_1_alg».proof.Proof.Gen.KernelIdeal.Frame
import proofs.«158538_j21775484190872_1_alg».proof.Proof.Gen.ReferenceIdeal
import proofs.«158538_j21775484190872_1_alg».proof.Proof.Gen.Pre_finite_inputs
import proofs.«158538_j21775484190872_1_alg».proof.Proof.Gen.ReferenceIdeal.Run
import proofs.«158538_j21775484190872_1_alg».proof.Proof.Gen.ReferenceIdeal.Read
import proofs.«158538_j21775484190872_1_alg».proof.Proof.HingeSpec
import proofs.«158538_j21775484190872_1_alg».proof.Proof.RefLoss
import proofs.«158538_j21775484190872_1_alg».proof.Proof.Result
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs, faults nowhere and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the kernel read at the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the three arguments both programs end with the loss of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.lossScalar m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefLoss.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
